-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg5 : FVec F S128x128 .f32) (main_arg6 : FVec F S128x128 .f32) (main_arg7 : FVec F S128 .f32) (main_arg8 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S8000x128 : Shape := ⟨2, ![8000, 128]⟩
abbrev S5000x128 : Shape := ⟨2, ![5000, 128]⟩
abbrev S1x128 : Shape := ⟨2, ![1, 128]⟩

abbrev nBuf : Space → Nat
  | .hbm => 56
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000x1, .f32⟩
  | .hbm, ⟨15, _⟩ => ⟨S_, .f32⟩
  | .hbm, ⟨16, _⟩ => ⟨S50000x1, .f32⟩
  | .hbm, ⟨17, _⟩ => ⟨S1600000x1, .i32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S50000x128, .f32⟩
  | .hbm, ⟨34, _⟩ => ⟨S1600000x1, .i32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S50000x128, .f32⟩
  | .hbm, ⟨51, _⟩ => ⟨S1600000x1, .i32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000x1_S1600000x1_S1600000x1_1_0_0_1_wf : ScatterDims.WF S50000x1 S1600000x1 S1600000x1 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1600000x128.size a
  hwx0_1 : ∀ i : grid0.Coords, EltTy.bits .f32 = 32 ∨ (Rect.block (s := S1600000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S1600000x128.size a
  hwx0_2 : ∀ i : grid0.Coords, EltTy.bits .f32 = 32 ∨ (Rect.block (s := S1600000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S1600000x128.size a
  hwx2_1 : ∀ i : grid2.Coords, EltTy.bits .f32 = 32 ∨ (Rect.block (s := S1600000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S1600000x128.size a
  hwx2_2 : ∀ i : grid2.Coords, EltTy.bits .f32 = 32 ∨ (Rect.block (s := S1600000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S50000x1, .f32⟩
  | .hbm, ⟨34, _⟩ => ⟨S1600000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S50000x128, .f32⟩
  | .hbm, ⟨65, _⟩ => ⟨S1600000x1, .i32⟩
  | .hbm, ⟨66, _⟩ => ⟨S50000x128, .f32⟩
  | .hbm, ⟨67, _⟩ => ⟨S_, .f32⟩
  | .hbm, ⟨68, _⟩ => ⟨S1600000x1, .f32⟩
  | .hbm, ⟨69, _⟩ => ⟨S_, .f32⟩
  | .hbm, ⟨70, _⟩ => ⟨S50000x1, .f32⟩
  | .hbm, ⟨71, _⟩ => ⟨S1600000x1, .i32⟩
  | .hbm, ⟨72, _⟩ => ⟨S50000x1, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_cst : Ref sig .tc := ⟨.hbm, 60, rfl⟩
abbrev main_call2_v0 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KMsg0.lean ====
import proofs.«158454_j59279138619817_1_alg».proof.Proof.Gen.KernelIdeal.Frame
import Idealize.ShloMosaic.Lib.Pipeline.Value
import Idealize.ShloMosaic.Lib.ValueIdx

/-!
  A message region (the program has two, one per layer, with the same body). Each of its 200 grid points reads rows 8000·t … 8000·t + 7999 of the gathered node
  features and of the edge features, adds them entry by entry and clamps the sum below at zero; it writes the result
  to the same rows of the message array. The 200 row blocks tile the 1,600,000 rows, so after the region the message
  array is, at every entry, the clamped sum of the two input arrays at that entry.
-/

noncomputable section

namespace Cert.KernelIdeal.Msg0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Entry by entry: the sum of the two arrays, clamped below at zero. -/
abbrev clampedSum (a0 a1 : S1600000x128.Idx → Elt F .f32) : S1600000x128.Idx → Elt F .f32 :=
  fun i => FloatOps.maximumf (FloatOps.addf (a0 i) (a1 i)) (Scalar.ofBits .f32 0x00000000#32)

/-- The body's stored value is the clamped sum of its two loaded blocks, entry by entry. -/
theorem stored_eq (x0 x1 : Vec F S8000x128 .f32) :
    k0_pay1 x0 x1 = fun j => FloatOps.maximumf (FloatOps.addf (x0 j) (x1 j)) (Scalar.ofBits .f32 0x00000000#32) := by
  unfold k0_pay1
  simp only [shapeCast_self]
  rfl

/-- Every window's block index at point t is (t, 0). -/
theorem block_index : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point t writes back is block t of the clamped sum of the two input arrays as the region finds them. -/
theorem written_eq (c : Dev nD) (t : Fin cfg0.N) :
    (dat0 V c).flushed 2 t = ((cfg0.win 2).blk t).view.read (Elt F)
      (clampedSum (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S8000x128) zero_offsets]
  rw [stored_eq]
  obtain ⟨e0, e1, e2, e3, e4, e5⟩ := block_index t
  funext j
  show FloatOps.maximumf (FloatOps.addf (V c (Pipeline.arrRef spec0 0) (((cfg0.win 0).blk t).view.emb j)) (V c (Pipeline.arrRef spec0 1) (((cfg0.win 1).blk t).view.emb j))) _
     = FloatOps.maximumf (FloatOps.addf (V c (Pipeline.arrRef spec0 0) (((cfg0.win 2).blk t).view.emb j)) (V c (Pipeline.arrRef spec0 1) (((cfg0.win 2).blk t).view.emb j))) _
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 128 + 1 * (j 1).val = win0_2.index t (1 : Fin 2) * 128 + 1 * (j 1).val; omega
  rw [h0, h1]

/-- An entry of the message array lies in point t's block iff its row is one of the 8000 rows from 8000·t on. -/
theorem mem_block (t : Fin cfg0.N) (i : S1600000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v17).slice (win0_2.rect t)).set ↔ _
  rw [View.set_slice_whole, Rect.mem_set_unit]
  exact Iff.rfl

/-- Every entry lies in the block of the point whose number is its row divided by 8000. -/
theorem covered (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : cfg0.N = 200 := N_0
  refine ⟨⟨(i 0).val / 8000, by rw [hN]; omega⟩, flush0_2 _, ?_⟩
  rw [mem_block]
  obtain ⟨-, -, -, -, e4, e5⟩ := block_index ⟨(i 0).val / 8000, by rw [hN]; omega⟩
  intro a
  match a with
  | ⟨0, _⟩ => show win0_2.index _ (0 : Fin 2) * 8000 ≤ (i 0).val ∧ (i 0).val < win0_2.index _ (0 : Fin 2) * 8000 + 8000; rw [e4]; show (i 0).val / 8000 * 8000 ≤ (i 0).val ∧ (i 0).val < (i 0).val / 8000 * 8000 + 8000; omega
  | ⟨1, _⟩ => show win0_2.index _ (1 : Fin 2) * 128 ≤ (i 1).val ∧ (i 1).val < win0_2.index _ (1 : Fin 2) * 128 + 128; rw [e5]; omega

/-- The message array after the region: the clamped sum of the two input arrays, entry by entry. -/
theorem final (c : Dev nD) :
    (dat0 V c).arrAt 2 cfg0.N = clampedSum (V c (Pipeline.arrRef spec0 0)) (V c (Pipeline.arrRef spec0 1)) :=
  (dat0 V c).arrAt_eq_of_cover 2 _ (fun t _ => written_eq V c t) (fun i => covered i)

end Cert.KernelIdeal.Msg0

end
-- ==== Proof.KMsg2.lean ====
import proofs.«158454_j59279138619817_1_alg».proof.Proof.Gen.KernelIdeal.Frame
import Idealize.ShloMosaic.Lib.Pipeline.Value
import Idealize.ShloMosaic.Lib.ValueIdx

/-!
  A message region (the program has two, one per layer, with the same body). Each of its 200 grid points reads rows 8000·t … 8000·t + 7999 of the gathered node
  features and of the edge features, adds them entry by entry and clamps the sum below at zero; it writes the result
  to the same rows of the message array. The 200 row blocks tile the 1,600,000 rows, so after the region the message
  array is, at every entry, the clamped sum of the two input arrays at that entry.
-/

noncomputable section

namespace Cert.KernelIdeal.Msg2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Entry by entry: the sum of the two arrays, clamped below at zero. -/
abbrev clampedSum (a0 a1 : S1600000x128.Idx → Elt F .f32) : S1600000x128.Idx → Elt F .f32 :=
  fun i => FloatOps.maximumf (FloatOps.addf (a0 i) (a1 i)) (Scalar.ofBits .f32 0x00000000#32)

/-- The body's stored value is the clamped sum of its two loaded blocks, entry by entry. -/
theorem stored_eq (x0 x1 : Vec F S8000x128 .f32) :
    k2_pay1 x0 x1 = fun j => FloatOps.maximumf (FloatOps.addf (x0 j) (x1 j)) (Scalar.ofBits .f32 0x00000000#32) := by
  unfold k2_pay1
  simp only [shapeCast_self]
  rfl

/-- Every window's block index at point t is (t, 0). -/
theorem block_index : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

/-- What point t writes back is block t of the clamped sum of the two input arrays as the region finds them. -/
theorem written_eq (c : Dev nD) (t : Fin cfg2.N) :
    (dat2 V c).flushed 2 t = ((cfg2.win 2).blk t).view.read (Elt F)
      (clampedSum (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S8000x128) zero_offsets]
  rw [stored_eq]
  obtain ⟨e0, e1, e2, e3, e4, e5⟩ := block_index t
  funext j
  show FloatOps.maximumf (FloatOps.addf (V c (Pipeline.arrRef spec2 0) (((cfg2.win 0).blk t).view.emb j)) (V c (Pipeline.arrRef spec2 1) (((cfg2.win 1).blk t).view.emb j))) _
     = FloatOps.maximumf (FloatOps.addf (V c (Pipeline.arrRef spec2 0) (((cfg2.win 2).blk t).view.emb j)) (V c (Pipeline.arrRef spec2 1) (((cfg2.win 2).blk t).view.emb j))) _
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  rw [h0, h1]

/-- An entry of the message array lies in point t's block iff its row is one of the 8000 rows from 8000·t on. -/
theorem mem_block (t : Fin cfg2.N) (i : S1600000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v31).slice (win2_2.rect t)).set ↔ _
  rw [View.set_slice_whole, Rect.mem_set_unit]
  exact Iff.rfl

/-- Every entry lies in the block of the point whose number is its row divided by 8000. -/
theorem covered (i : S1600000x128.Idx) :
    ∃ t : Fin cfg2.N, (cfg2.win 2).flush t = true ∧ i ∈ ((cfg2.win 2).blk t).view.set := by
  have hi0 : (i 0).val < 1600000 := (i 0).isLt
  have hi1 : (i 1).val < 128 := (i 1).isLt
  have hN : cfg2.N = 200 := N_2
  refine ⟨⟨(i 0).val / 8000, by rw [hN]; omega⟩, flush2_2 _, ?_⟩
  rw [mem_block]
  obtain ⟨-, -, -, -, e4, e5⟩ := block_index ⟨(i 0).val / 8000, by rw [hN]; omega⟩
  intro a
  match a with
  | ⟨0, _⟩ => show win2_2.index _ (0 : Fin 2) * 8000 ≤ (i 0).val ∧ (i 0).val < win2_2.index _ (0 : Fin 2) * 8000 + 8000; rw [e4]; show (i 0).val / 8000 * 8000 ≤ (i 0).val ∧ (i 0).val < (i 0).val / 8000 * 8000 + 8000; omega
  | ⟨1, _⟩ => show win2_2.index _ (1 : Fin 2) * 128 ≤ (i 1).val ∧ (i 1).val < win2_2.index _ (1 : Fin 2) * 128 + 128; rw [e5]; omega

/-- The message array after the region: the clamped sum of the two input arrays, entry by entry. -/
theorem final (c : Dev nD) :
    (dat2 V c).arrAt 2 cfg2.N = clampedSum (V c (Pipeline.arrRef spec2 0)) (V c (Pipeline.arrRef spec2 1)) :=
  (dat2 V c).arrAt_eq_of_cover 2 _ (fun t _ => written_eq V c t) (fun i => covered i)

end Cert.KernelIdeal.Msg2

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Spec.lean ====
import proofs.«158454_j59279138619817_1_alg».proof.Proof.LibPlainDot
import Idealize.ShloMosaic.PureOps.Ideal.Laws
import Idealize.ShloMosaic.Lib.ValueIdx

/-!
  One layer's dense step, entry by entry, over the extended reals: for aggregated features A and node features Z
  (both with M rows and 128 columns), weights Wl and Wr (128 × 128) and a bias b (128),

      combine A Z Wl b Wr (p, q) = ( Σ_k A(p,k)·Wl(k,q) + b(q) ) + Σ_k Z(p,k)·Wr(k,q),

  with the additions grouped exactly so. Both programs compute this grouping, so no law of the extended reals beyond
  the order-independence of a finite sum is needed to compare them.
-/

open scoped BigOperators

noncomputable section

namespace Cert.Spec

open Idealize.ShloMosaic Idealize.ShloMosaic.ValueIdx

/-- The dense step at row p and column q. -/
def combine {M : Nat} (A Z : (⟨2, ![M, 128]⟩ : Shape).Idx → EReal) (Wl : (⟨2, ![128, 128]⟩ : Shape).Idx → EReal)
    (b : (⟨1, ![128]⟩ : Shape).Idx → EReal) (Wr : (⟨2, ![128, 128]⟩ : Shape).Idx → EReal) (p : Fin M) (q : Fin 128) : EReal :=
  (∑ k : Fin 128, A (ix2 p k) * Wl (ix2 k q) + b (ix1 q)) + ∑ k : Fin 128, Z (ix2 p k) * Wr (ix2 k q)

/-- The dense step depends on A and Z only through row p, and on the weights and bias through column q. -/
theorem combine_congr {M M' : Nat} {A Z : (⟨2, ![M, 128]⟩ : Shape).Idx → EReal} {A' Z' : (⟨2, ![M', 128]⟩ : Shape).Idx → EReal}
    {Wl Wr Wl' Wr' : (⟨2, ![128, 128]⟩ : Shape).Idx → EReal} {b b' : (⟨1, ![128]⟩ : Shape).Idx → EReal}
    (p : Fin M) (p' : Fin M') (q : Fin 128)
    (hA : ∀ k : Fin 128, A (ix2 p k) = A' (ix2 p' k)) (hZ : ∀ k : Fin 128, Z (ix2 p k) = Z' (ix2 p' k))
    (hWl : ∀ k : Fin 128, Wl (ix2 k q) = Wl' (ix2 k q)) (hWr : ∀ k : Fin 128, Wr (ix2 k q) = Wr' (ix2 k q))
    (hb : b (ix1 q) = b' (ix1 q)) :
    combine A Z Wl b Wr p q = combine A' Z' Wl' b' Wr' p' q := by
  unfold combine
  have h1 : (∑ k : Fin 128, A (ix2 p k) * Wl (ix2 k q)) = ∑ k : Fin 128, A' (ix2 p' k) * Wl' (ix2 k q) :=
    Finset.sum_congr rfl fun k _ => by rw [hA k, hWl k]
  have h2 : (∑ k : Fin 128, Z (ix2 p k) * Wr (ix2 k q)) = ∑ k : Fin 128, Z' (ix2 p' k) * Wr' (ix2 k q) :=
    Finset.sum_congr rfl fun k _ => by rw [hZ k, hWr k]
  rw [h1, h2, hb]

end Cert.Spec

end
-- ==== Proof.KLin1.lean ====
import proofs.«158454_j59279138619817_1_alg».proof.Proof.Gen.KernelIdeal.Frame
import proofs.«158454_j59279138619817_1_alg».proof.Proof.Spec
import Idealize.ShloMosaic.Lib.Pipeline.Value
import Idealize.ShloMosaic.Lib.ValueIdx
import Idealize.ShloMosaic.Lib.ValueLayout

/-!
  The first dense region, at the ideal values. Each of its 10 grid points reads rows 5000·t … 5000·t + 4999 of the
  aggregated features A and of the node features Z, and the whole of the two weight matrices and of the bias; it
  computes, for its rows, (A·Wl + b) + Z·Wr clamped below at zero (a change of float format is the identity at the
  ideal values, so the roundings to bf16 in front of the two products disappear, and each product into a zero
  accumulator is the plain sum over the 128 contracted entries). The 10 row blocks tile the 50,000 rows, so after
  the region the output array is the clamped dense step of the whole arrays, entry by entry.
-/

open scoped BigOperators

noncomputable section

namespace Cert.KernelIdeal.Lin1

open Cert.KernelIdeal Cert.KernelIdeal.Gen Idealize.ShloMosaic Idealize.ShloMosaic.TcCoe Idealize.SL.Sem
open Idealize.ShloMosaic.Pipeline (Dat)
open Idealize.ShloMosaic.ValueIdx Cert.Spec

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- Entry by entry: the dense step of the five arrays, clamped below at zero. -/
abbrev clampedCombine (A Z : S50000x128.Idx → EReal) (Wl : S128x128.Idx → EReal) (b : S128.Idx → EReal) (Wr : S128x128.Idx → EReal) :
    S50000x128.Idx → EReal :=
  fun i => max (combine (M := 50000) A Z Wl b Wr (i 0) (i 1)) (Ideal.ofBits .f32 0x00000000#32)

/-- The body's stored value at row p and column q of its block: the clamped dense step of the loaded blocks. -/
theorem stored_at (x0 x1 : Vec Ideal S5000x128 .f32) (x2 x4 : Vec Ideal S128x128 .f32) (x3 : Vec Ideal S128 .f32)
    (p : Fin 5000) (q : Fin 128) :
    k1_pay1 x0 x1 x2 x4 x3 (ix2 p q) = max (combine (M := 5000) x0 x1 x2 x3 x4 p q) (Ideal.ofBits .f32 0x00000000#32) := by
  unfold k1_pay1
  simp only [shapeCast_self]
  show max ((FloatOps.matmul dot_S5000x128_S128x128_S5000x128_1_0_0_1_n_n none _ _ (constant (F := Ideal) S5000x128 .f32 0x00000000#32) (ix2 p q)
      + broadcastTo S5000x128 (shapeCast S1x128 x3 shapeCasts_S128_S1x128) broadcasts_S1x128_S5000x128 (ix2 p q))
      + FloatOps.matmul dot_S5000x128_S128x128_S5000x128_1_0_0_1_n_n none _ _ (constant (F := Ideal) S5000x128 .f32 0x00000000#32) (ix2 p q)) _ = _
  rw [Cert.Lib.PlainDot.matmul_zero_apply dot_S5000x128_S128x128_S5000x128_1_0_0_1_n_n rfl rfl rfl rfl rfl rfl,
    Cert.Lib.PlainDot.matmul_zero_apply dot_S5000x128_S128x128_S5000x128_1_0_0_1_n_n rfl rfl rfl rfl rfl rfl,
    broadcastTo_1b_ab_apply, shapeCast_a_1a_apply]
  rfl

/-- The block indices at point t: the three row-blocked windows are at block (t, 0), the whole-array windows at zero. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 5000·t + p of the array. -/
def row (t : Fin cfg1.N) (p : Fin 5000) : Fin 50000 :=
  ⟨t.val * 5000 + p.val, by have h : t.val < cfg1.N := t.isLt; have hN : cfg1.N = 10 := N_1; have := p.isLt; omega⟩

theorem emb_rows0 (t : Fin cfg1.N) (p : Fin 5000) (k : Fin 128) :
    ((cfg1.win 0).blk t).view.emb (ix2 p k) = ix2 (row t p) k := by
  obtain ⟨e0, e1, -⟩ := block_index t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb_rows1 (t : Fin cfg1.N) (p : Fin 5000) (k : Fin 128) :
    ((cfg1.win 1).blk t).view.emb (ix2 p k) = ix2 (row t p) k := by
  obtain ⟨-, -, e0, e1, -⟩ := block_index t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem emb_whole2 (t : Fin cfg1.N) (k q : Fin 128) :
    ((cfg1.win 2).blk t).view.emb (ix2 k q) = ix2 k q := by
  obtain ⟨-, -, -, -, e0, e1, -⟩ := block_index t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb_whole3 (t : Fin cfg1.N) (q : Fin 128) :
    ((cfg1.win 3).blk t).view.emb (ix1 q) = ix1 q := by
  obtain ⟨-, -, -, -, -, -, e0, -⟩ := block_index t
  funext a; apply Fin.ext
  match a with
  | ⟨0, _⟩ => show win1_3.index t (0 : Fin 1) * 128 + 1 * q.val = q.val; omega

theorem emb_whole4 (t : Fin cfg1.N) (k q : Fin 128) :
    ((cfg1.win 4).blk t).view.emb (ix2 k q) = ix2 k q := by
  obtain ⟨-, -, -, -, -, -, -, e0, e1, -⟩ := block_index t
  funext a; apply Fin.ext
  match a with
  | ⟨0, _⟩ => show win1_4.index t (0 : Fin 2) * 128 + 1 * k.val = k.val; omega
  | ⟨1, _⟩ => show win1_4.index t (1 : Fin 2) * 128 + 1 * q.val = q.val; omega

theorem emb_rows5 (t : Fin cfg1.N) (p : Fin 5000) (q : Fin 128) :
    ((cfg1.win 5).blk t).view.emb (ix2 p q) = ix2 (row t p) q := by
  obtain ⟨-, -, -, -, -, -, -, -, -, e0, e1⟩ := block_index t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point t writes back is block t of the clamped dense step of the five input arrays as the region finds them. -/
theorem written_eq (c : Dev nD) (t : Fin cfg1.N) :
    (dat1 V c).flushed 5 t = ((cfg1.win 5).blk t).view.read (Elt Ideal)
      (clampedCombine (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets2]
  simp only [View.ld_unit_zero (S := S5000x128) zero_offsets2, View.ld_unit_zero (S := S128x128) zero_offsets2,
    View.ld_unit_zero (S := S128) zero_offsets1]
  funext j
  obtain ⟨p, q, rfl⟩ : ∃ (p : Fin 5000) (q : Fin 128), j = ix2 p q := ⟨j 0, j 1, eq_ix2 j⟩
  refine (stored_at _ _ _ _ _ p q).trans ?_
  show max _ _ = max (combine (M := 50000) (V c (Pipeline.arrRef spec1 0)) (V c (Pipeline.arrRef spec1 1)) (V c (Pipeline.arrRef spec1 2))
      (V c (Pipeline.arrRef spec1 3)) (V c (Pipeline.arrRef spec1 4))
      ((((cfg1.win 5).blk t).view.emb (ix2 p q)) 0) ((((cfg1.win 5).blk t).view.emb (ix2 p q)) 1)) _
  rw [emb_rows5 t p q]
  refine congrArg (fun x => max x _) ?_
  refine combine_congr p (row t p) q (fun k => ?_) (fun k => ?_) (fun k => ?_) (fun k => ?_) ?_
  · show V c (Pipeline.arrRef spec1 0) (((cfg1.win 0).blk t).view.emb (ix2 p k)) = _
    rw [emb_rows0 t p k]
  · show V c (Pipeline.arrRef spec1 1) (((cfg1.win 1).blk t).view.emb (ix2 p k)) = _
    rw [emb_rows1 t p k]
  · show V c (Pipeline.arrRef spec1 2) (((cfg1.win 2).blk t).view.emb (ix2 k q)) = _
    rw [emb_whole2 t k q]
  · show V c (Pipeline.arrRef spec1 4) (((cfg1.win 4).blk t).view.emb (ix2 k q)) = _
    rw [emb_whole4 t k q]
  · show V c (Pipeline.arrRef spec1 3) (((cfg1.win 3).blk t).view.emb (ix1 q)) = _
    rw [emb_whole3 t q]

/-- An entry of the output array lies in point t's block iff its row is one of the 5000 rows from 5000·t on. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v23).slice (win1_5.rect t)).set ↔ _
  rw [View.set_slice_whole, Rect.mem_set_unit]
  exact Iff.rfl

/-- Every entry lies in the block of the point whose number is its row divided by 5000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_block]
  obtain ⟨-, -, -, -, -, -, -, -, -, e0, e1⟩ := block_index ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-- The output array after the region: the clamped dense step of the five input arrays, entry by entry. -/
theorem final (c : Dev nD) :
    (dat1 V c).arrAt 5 cfg1.N = clampedCombine (V c (Pipeline.arrRef spec1 0)) (V c (Pipeline.arrRef spec1 1))
      (V c (Pipeline.arrRef spec1 2)) (V c (Pipeline.arrRef spec1 3)) (V c (Pipeline.arrRef spec1 4)) :=
  (dat1 V c).arrAt_eq_of_cover 5 _ (fun t _ => written_eq V c t) (fun i => covered i)

end Cert.KernelIdeal.Lin1

end
-- ==== Proof.KLin3.lean ====
import proofs.«158454_j59279138619817_1_alg».proof.Proof.Gen.KernelIdeal.Frame
import proofs.«158454_j59279138619817_1_alg».proof.Proof.Spec
import Idealize.ShloMosaic.Lib.Pipeline.Value
import Idealize.ShloMosaic.Lib.ValueIdx
import Idealize.ShloMosaic.Lib.ValueLayout

/-!
  The second dense region, at the ideal values: the output layer, with no clamp. Each of its 10 grid points reads
  rows 5000·t … 5000·t + 4999 of the second layer's aggregated features and of the first layer's output, and the
  whole of the second layer's two weight matrices and bias, and writes (A·Wl + b) + Z·Wr for its rows. The row
  blocks tile the 50,000 rows, so the result array is the dense step of the whole arrays, entry by entry.
-/

open scoped BigOperators

noncomputable section

namespace Cert.KernelIdeal.Lin3

open Cert.KernelIdeal Cert.KernelIdeal.Gen Idealize.ShloMosaic Idealize.ShloMosaic.TcCoe Idealize.SL.Sem
open Idealize.ShloMosaic.Pipeline (Dat)
open Idealize.ShloMosaic.ValueIdx Cert.Spec

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- Entry by entry: the dense step of the five arrays. -/
abbrev combineAll (A Z : S50000x128.Idx → EReal) (Wl : S128x128.Idx → EReal) (b : S128.Idx → EReal) (Wr : S128x128.Idx → EReal) :
    S50000x128.Idx → EReal :=
  fun i => combine (M := 50000) A Z Wl b Wr (i 0) (i 1)

/-- The body's stored value at row p and column q of its block: the dense step of the loaded blocks. -/
theorem stored_at (x0 x1 : Vec Ideal S5000x128 .f32) (x2 x4 : Vec Ideal S128x128 .f32) (x3 : Vec Ideal S128 .f32)
    (p : Fin 5000) (q : Fin 128) :
    k3_pay1 x0 x1 x2 x4 x3 (ix2 p q) = combine (M := 5000) x0 x1 x2 x3 x4 p q := by
  unfold k3_pay1
  simp only [shapeCast_self]
  show (FloatOps.matmul dot_S5000x128_S128x128_S5000x128_1_0_0_1_n_n none _ _ (constant (F := Ideal) S5000x128 .f32 0x00000000#32) (ix2 p q)
      + broadcastTo S5000x128 (shapeCast S1x128 x3 shapeCasts_S128_S1x128) broadcasts_S1x128_S5000x128 (ix2 p q))
      + FloatOps.matmul dot_S5000x128_S128x128_S5000x128_1_0_0_1_n_n none _ _ (constant (F := Ideal) S5000x128 .f32 0x00000000#32) (ix2 p q) = _
  rw [Cert.Lib.PlainDot.matmul_zero_apply dot_S5000x128_S128x128_S5000x128_1_0_0_1_n_n rfl rfl rfl rfl rfl rfl,
    Cert.Lib.PlainDot.matmul_zero_apply dot_S5000x128_S128x128_S5000x128_1_0_0_1_n_n rfl rfl rfl rfl rfl rfl,
    broadcastTo_1b_ab_apply, shapeCast_a_1a_apply]
  rfl

/-- The block indices at point t: the three row-blocked windows are at block (t, 0), the whole-array windows at zero. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of point t's block is row 5000·t + p of the array. -/
def row (t : Fin cfg3.N) (p : Fin 5000) : Fin 50000 :=
  ⟨t.val * 5000 + p.val, by have h : t.val < cfg3.N := t.isLt; have hN : cfg3.N = 10 := N_3; have := p.isLt; omega⟩

theorem emb_rows0 (t : Fin cfg3.N) (p : Fin 5000) (k : Fin 128) :
    ((cfg3.win 0).blk t).view.emb (ix2 p k) = ix2 (row t p) k := by
  obtain ⟨e0, e1, -⟩ := block_index t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

theorem emb_rows1 (t : Fin cfg3.N) (p : Fin 5000) (k : Fin 128) :
    ((cfg3.win 1).blk t).view.emb (ix2 p k) = ix2 (row t p) k := by
  obtain ⟨-, -, e0, e1, -⟩ := block_index t
  funext a; apply Fin.ext
  match a with
  | ⟨0, _⟩ => show win3_1.index t (0 : Fin 2) * 5000 + 1 * p.val = t.val * 5000 + p.val; omega
  | ⟨1, _⟩ => show win3_1.index t (1 : Fin 2) * 128 + 1 * k.val = k.val; omega

theorem emb_whole2 (t : Fin cfg3.N) (k q : Fin 128) :
    ((cfg3.win 2).blk t).view.emb (ix2 k q) = ix2 k q := by
  obtain ⟨-, -, -, -, e0, e1, -⟩ := block_index t
  funext a; apply Fin.ext
  match a with
  | ⟨0, _⟩ => show win3_2.index t (0 : Fin 2) * 128 + 1 * k.val = k.val; omega
  | ⟨1, _⟩ => show win3_2.index t (1 : Fin 2) * 128 + 1 * q.val = q.val; omega

theorem emb_whole3 (t : Fin cfg3.N) (q : Fin 128) :
    ((cfg3.win 3).blk t).view.emb (ix1 q) = ix1 q := by
  obtain ⟨-, -, -, -, -, -, e0, -⟩ := block_index t
  funext a; apply Fin.ext
  match a with
  | ⟨0, _⟩ => show win3_3.index t (0 : Fin 1) * 128 + 1 * q.val = q.val; omega

theorem emb_whole4 (t : Fin cfg3.N) (k q : Fin 128) :
    ((cfg3.win 4).blk t).view.emb (ix2 k q) = ix2 k q := by
  obtain ⟨-, -, -, -, -, -, -, e0, e1, -⟩ := block_index t
  funext a; apply Fin.ext
  match a with
  | ⟨0, _⟩ => show win3_4.index t (0 : Fin 2) * 128 + 1 * k.val = k.val; omega
  | ⟨1, _⟩ => show win3_4.index t (1 : Fin 2) * 128 + 1 * q.val = q.val; omega

theorem emb_rows5 (t : Fin cfg3.N) (p : Fin 5000) (q : Fin 128) :
    ((cfg3.win 5).blk t).view.emb (ix2 p q) = ix2 (row t p) q := by
  obtain ⟨-, -, -, -, -, -, -, -, -, e0, e1⟩ := block_index t
  funext a; apply Fin.ext
  match a with
  | ⟨0, _⟩ => show win3_5.index t (0 : Fin 2) * 5000 + 1 * p.val = t.val * 5000 + p.val; omega
  | ⟨1, _⟩ => show win3_5.index t (1 : Fin 2) * 128 + 1 * q.val = q.val; omega

/-- What point t writes back is block t of the dense step of the five input arrays as the region finds them. -/
theorem written_eq (c : Dev nD) (t : Fin cfg3.N) :
    (dat3 V c).flushed 5 t = ((cfg3.win 5).blk t).view.read (Elt Ideal)
      (combineAll (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets2]
  simp only [View.ld_unit_zero (S := S5000x128) zero_offsets2, View.ld_unit_zero (S := S128x128) zero_offsets2,
    View.ld_unit_zero (S := S128) zero_offsets1]
  funext j
  obtain ⟨p, q, rfl⟩ : ∃ (p : Fin 5000) (q : Fin 128), j = ix2 p q := ⟨j 0, j 1, eq_ix2 j⟩
  refine (stored_at _ _ _ _ _ p q).trans ?_
  show _ = combine (M := 50000) (V c (Pipeline.arrRef spec3 0)) (V c (Pipeline.arrRef spec3 1)) (V c (Pipeline.arrRef spec3 2))
      (V c (Pipeline.arrRef spec3 3)) (V c (Pipeline.arrRef spec3 4))
      ((((cfg3.win 5).blk t).view.emb (ix2 p q)) 0) ((((cfg3.win 5).blk t).view.emb (ix2 p q)) 1)
  rw [emb_rows5 t p q]
  refine combine_congr p (row t p) q (fun k => ?_) (fun k => ?_) (fun k => ?_) (fun k => ?_) ?_
  · show V c (Pipeline.arrRef spec3 0) (((cfg3.win 0).blk t).view.emb (ix2 p k)) = _
    rw [emb_rows0 t p k]
  · show V c (Pipeline.arrRef spec3 1) (((cfg3.win 1).blk t).view.emb (ix2 p k)) = _
    rw [emb_rows1 t p k]
  · show V c (Pipeline.arrRef spec3 2) (((cfg3.win 2).blk t).view.emb (ix2 k q)) = _
    rw [emb_whole2 t k q]
  · show V c (Pipeline.arrRef spec3 4) (((cfg3.win 4).blk t).view.emb (ix2 k q)) = _
    rw [emb_whole4 t k q]
  · show V c (Pipeline.arrRef spec3 3) (((cfg3.win 3).blk t).view.emb (ix1 q)) = _
    rw [emb_whole3 t q]

/-- An entry of the result array lies in point t's block iff its row is one of the 5000 rows from 5000·t on. -/
theorem mem_block (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v37).slice (win3_5.rect t)).set ↔ _
  rw [View.set_slice_whole, Rect.mem_set_unit]
  exact Iff.rfl

/-- Every entry lies in the block of the point whose number is its row divided by 5000. -/
theorem covered (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_5 _, ?_⟩
  rw [mem_block]
  obtain ⟨-, -, -, -, -, -, -, -, -, e0, e1⟩ := block_index ⟨(i 0).val / 5000, by rw [hN]; omega⟩
  intro a
  match a with
  | ⟨0, _⟩ => show win3_5.index _ (0 : Fin 2) * 5000 ≤ (i 0).val ∧ (i 0).val < win3_5.index _ (0 : Fin 2) * 5000 + 5000; rw [e0]; show (i 0).val / 5000 * 5000 ≤ (i 0).val ∧ (i 0).val < (i 0).val / 5000 * 5000 + 5000; omega
  | ⟨1, _⟩ => show win3_5.index _ (1 : Fin 2) * 128 ≤ (i 1).val ∧ (i 1).val < win3_5.index _ (1 : Fin 2) * 128 + 128; rw [e1]; omega

/-- The result array after the region: the dense step of the five input arrays, entry by entry. -/
theorem final (c : Dev nD) :
    (dat3 V c).arrAt 5 cfg3.N = combineAll (V c (Pipeline.arrRef spec3 0)) (V c (Pipeline.arrRef spec3 1))
      (V c (Pipeline.arrRef spec3 2)) (V c (Pipeline.arrRef spec3 3)) (V c (Pipeline.arrRef spec3 4)) :=
  (dat3 V c).arrAt_eq_of_cover 5 _ (fun t _ => written_eq V c t) (fun i => covered i)

end Cert.KernelIdeal.Lin3

end
-- ==== Proof.RefStages.lean ====
import proofs.«158454_j59279138619817_1_alg».proof.Proof.Gen.ReferenceIdeal.Run
import proofs.«158454_j59279138619817_1_alg».proof.Proof.Gen.ReferenceIdeal.Read
import proofs.«158454_j59279138619817_1_alg».proof.Proof.Spec
import Idealize.ShloMosaic.Lib.ValueIdx

/-!
  The reference's four float stretches, each read entry by entry at the ideal values over its own earlier stages:
  the two message stages are the clamped sum of the gathered rows and the edge features; the hidden layer is the
  clamped dense step of the first aggregate, the input features and the first layer's parameters; the result is the
  dense step of the second aggregate, the hidden layer and the second layer's parameters. The gathers, the
  scatter-sums, the counts and the quotients in between stay folded: the kernel's program applies the same operations.
-/

open scoped BigOperators

noncomputable section

namespace Cert.ReferenceIdeal.Stages

open Cert.ReferenceIdeal Cert.ReferenceIdeal.Read Idealize.ShloMosaic Idealize.ShloMosaic.ValueIdx Cert.Spec

/-- The first message stage: gathered rows plus edge features, clamped below at zero. -/
theorem message1 (x0 : (⟨S50000x128, .f32⟩ : BufTy).Contents (Elt Ideal)) (x1 : (⟨S2x1600000, .i32⟩ : BufTy).Contents (Elt Ideal)) (x2 : (⟨S1600000x128, .f32⟩ : BufTy).Contents (Elt Ideal)) :
    val_main_v12 (F := Ideal) x0 x1 x2 = fun i => max (val_main_v10 (F := Ideal) x0 x1 i + x2 i) (Ideal.ofBits .f32 0x00000000#32) := by
  funext i
  rw [val_main_v12_apply, val_main_v11_apply, val_main_call0_v0_apply, val_main_call0_cst_apply]
  rfl

/-- The second message stage, over the hidden layer's gathered rows. -/
theorem message2 (x0 : (⟨S50000x128, .f32⟩ : BufTy).Contents (Elt Ideal)) (x1 : (⟨S2x1600000, .i32⟩ : BufTy).Contents (Elt Ideal)) (x2 : (⟨S1600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v39 (F := Ideal) x0 x1 x2 x3 x4 x5
      = fun i => max (val_main_v37 (F := Ideal) x0 x1 x2 x3 x4 x5 i + x2 i) (Ideal.ofBits .f32 0x00000000#32) := by
  funext i
  rw [val_main_v39_apply, val_main_v38_apply, val_main_call2_v0_apply, val_main_call2_cst_apply]
  rfl

/-! The generated index maps of the four products and of the two bias broadcasts, at an entry given by its row and column. -/

theorem lidx24 (p : Fin 50000) (q k : Fin 128) : lidx_main_v24 (ix2 p q) k = ix2 p k :=
  funext fun a => by match a with | ⟨0, _⟩ => rfl | ⟨1, _⟩ => rfl
theorem ridx24 (p : Fin 50000) (q k : Fin 128) : ridx_main_v24 (ix2 p q) k = ix2 k q :=
  funext fun a => by match a with | ⟨0, _⟩ => rfl | ⟨1, _⟩ => rfl
theorem lidx28 (p : Fin 50000) (q k : Fin 128) : lidx_main_v28 (ix2 p q) k = ix2 p k :=
  funext fun a => by match a with | ⟨0, _⟩ => rfl | ⟨1, _⟩ => rfl
theorem ridx28 (p : Fin 50000) (q k : Fin 128) : ridx_main_v28 (ix2 p q) k = ix2 k q :=
  funext fun a => by match a with | ⟨0, _⟩ => rfl | ⟨1, _⟩ => rfl
theorem lidx51 (p : Fin 50000) (q k : Fin 128) : lidx_main_v51 (ix2 p q) k = ix2 p k :=
  funext fun a => by match a with | ⟨0, _⟩ => rfl | ⟨1, _⟩ => rfl
theorem ridx51 (p : Fin 50000) (q k : Fin 128) : ridx_main_v51 (ix2 p q) k = ix2 k q :=
  funext fun a => by match a with | ⟨0, _⟩ => rfl | ⟨1, _⟩ => rfl
theorem lidx55 (p : Fin 50000) (q k : Fin 128) : lidx_main_v55 (ix2 p q) k = ix2 p k :=
  funext fun a => by match a with | ⟨0, _⟩ => rfl | ⟨1, _⟩ => rfl
theorem ridx55 (p : Fin 50000) (q k : Fin 128) : ridx_main_v55 (ix2 p q) k = ix2 k q :=
  funext fun a => by match a with | ⟨0, _⟩ => rfl | ⟨1, _⟩ => rfl
theorem bias26 (p : Fin 50000) (q : Fin 128) : idx_main_v25 (idx_main_v26 (ix2 p q)) = ix1 q :=
  funext fun a => by match a with | ⟨0, _⟩ => rfl
theorem bias53 (p : Fin 50000) (q : Fin 128) : idx_main_v52 (idx_main_v53 (ix2 p q)) = ix1 q :=
  funext fun a => by match a with | ⟨0, _⟩ => rfl

/-- The hidden layer: the clamped dense step of the first aggregate and the input features. -/
theorem hidden (x0 : (⟨S50000x128, .f32⟩ : BufTy).Contents (Elt Ideal)) (x1 : (⟨S2x1600000, .i32⟩ : BufTy).Contents (Elt Ideal)) (x2 : (⟨S1600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v30 (F := Ideal) x0 x1 x2 x3 x4 x5
      = fun i => max (combine (M := 50000) (val_main_v23 (F := Ideal) x0 x1 x2) x0 x3 x4 x5 (i 0) (i 1)) (Ideal.ofBits .f32 0x00000000#32) := by
  funext i
  obtain ⟨p, q, rfl⟩ : ∃ (p : Fin 50000) (q : Fin 128), i = ix2 p q := ⟨i 0, i 1, eq_ix2 i⟩
  rw [val_main_v30_apply, val_main_v29_apply, val_main_v27_apply, val_main_v24_apply, val_main_v26_apply, val_main_v25_apply,
    val_main_v28_apply, val_main_call1_v0_apply, val_main_call1_cst_apply]
  simp only [lidx24, ridx24, lidx28, ridx28, bias26]
  rfl

/-- The result: the dense step of the second aggregate and the hidden layer. -/
theorem output (x0 : (⟨S50000x128, .f32⟩ : BufTy).Contents (Elt Ideal)) (x1 : (⟨S2x1600000, .i32⟩ : BufTy).Contents (Elt Ideal)) (x2 : (⟨S1600000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v56 (F := Ideal) x0 x1 x2 x3 x4 x5 x6 x7 x8
      = fun i => combine (M := 50000) (val_main_v50 (F := Ideal) x0 x1 x2 x3 x4 x5) (val_main_v30 (F := Ideal) x0 x1 x2 x3 x4 x5) x6 x7 x8 (i 0) (i 1) := by
  funext i
  obtain ⟨p, q, rfl⟩ : ∃ (p : Fin 50000) (q : Fin 128), i = ix2 p q := ⟨i 0, i 1, eq_ix2 i⟩
  rw [val_main_v56_apply, val_main_v54_apply, val_main_v51_apply, val_main_v53_apply, val_main_v52_apply, val_main_v55_apply]
  simp only [lidx51, ridx51, lidx55, ridx55, bias53]
  rfl

end Cert.ReferenceIdeal.Stages

end
-- ==== Proof.KChain.lean ====
import proofs.«158454_j59279138619817_1_alg».proof.Proof.Gen.KernelIdeal.Frame
import proofs.«158454_j59279138619817_1_alg».proof.Proof.KMsg0
import proofs.«158454_j59279138619817_1_alg».proof.Proof.KMsg2
import proofs.«158454_j59279138619817_1_alg».proof.Proof.KLin1
import proofs.«158454_j59279138619817_1_alg».proof.Proof.KLin3
import proofs.«158454_j59279138619817_1_alg».proof.Proof.RefStages
import Idealize.ShloMosaic.Lib.StableHlo.Run

/-!
  The kernel's program at the ideal values, read boundary by boundary. @main is four stretches of host operations,
  each followed by a kernel region. At every boundary the buffers that later segments read are named as functions of
  the nine argument arrays, in the vocabulary of the reference's stages (so that the comparison at the end is by
  name): the source and destination indices, the clamped counts, the gathered rows, then per layer the messages, the
  mean aggregate and the dense step. A host stretch changes only the buffers its operations write; a region changes
  only its output array; everything else is carried across unchanged.
-/

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! The nine argument arrays on core c. -/
abbrev in0 := m ((c.tc : Thread nD τ).loc main_arg0)
abbrev in1 := m ((c.tc : Thread nD τ).loc main_arg1)
abbrev in2 := m ((c.tc : Thread nD τ).loc main_arg2)
abbrev in3 := m ((c.tc : Thread nD τ).loc main_arg3)
abbrev in4 := m ((c.tc : Thread nD τ).loc main_arg4)
abbrev in5 := m ((c.tc : Thread nD τ).loc main_arg5)
abbrev in6 := m ((c.tc : Thread nD τ).loc main_arg6)
abbrev in7 := m ((c.tc : Thread nD τ).loc main_arg7)
abbrev in8 := m ((c.tc : Thread nD τ).loc main_arg8)

/-- A buffer after a stretch of host operations: each operation's result at its own buffer, what was there at any other. -/
macro "host_stretch" : tactic =>
  `(tactic| (dsimp only [W1, W3, W5, W7, hostOps0, hostOps1, hostOps2, hostOps3]; after_results))

/-! ## Entering the first message region -/

theorem src1 : W1 m ρ c (Proc.devRef .tc main_v1) = val_main_v1 (F := Ideal) (in1 m c) := by
  host_stretch <;> rfl
theorem dst1 : W1 m ρ c (Proc.devRef .tc main_v3) = val_main_v3 (F := Ideal) (in1 m c) := by
  host_stretch <;> rfl
theorem cnt1 : W1 m ρ c (Proc.devRef .tc main_v9) = val_main_v21 (F := Ideal) (in1 m c) := by
  host_stretch <;> rfl
theorem gathered1 : W1 m ρ c (Proc.devRef .tc main_v16) = val_main_v10 (F := Ideal) (in0 m c) (in1 m c) := by
  dsimp only [W1, hostOps0]
  after_results_simp <;> rfl
theorem arg0_1 : W1 m ρ c (Proc.devRef .tc main_arg0) = in0 m c := by
  host_stretch <;> rfl
theorem arg2_1 : W1 m ρ c (Proc.devRef .tc main_arg2) = in2 m c := by
  host_stretch <;> rfl
theorem arg3_1 : W1 m ρ c (Proc.devRef .tc main_arg3) = in3 m c := by
  host_stretch <;> rfl
theorem arg4_1 : W1 m ρ c (Proc.devRef .tc main_arg4) = in4 m c := by
  host_stretch <;> rfl
theorem arg5_1 : W1 m ρ c (Proc.devRef .tc main_arg5) = in5 m c := by
  host_stretch <;> rfl
theorem arg6_1 : W1 m ρ c (Proc.devRef .tc main_arg6) = in6 m c := by
  host_stretch <;> rfl
theorem arg7_1 : W1 m ρ c (Proc.devRef .tc main_arg7) = in7 m c := by
  host_stretch <;> rfl
theorem arg8_1 : W1 m ρ c (Proc.devRef .tc main_arg8) = in8 m c := by
  host_stretch <;> rfl

/-! ## Leaving it -/

theorem messages2 : W2 m ρ c (Proc.devRef .tc main_v17) = val_main_v12 (F := Ideal) (in0 m c) (in1 m c) (in2 m c) := by
  refine (W2_arr m ρ c 2).trans ((Msg0.final (V1 m ρ) c).trans ?_)
  have e0 : V1 m ρ c (Pipeline.arrRef spec0 0) = val_main_v10 (F := Ideal) (in0 m c) (in1 m c) := gathered1 m ρ c
  have e1 : V1 m ρ c (Pipeline.arrRef spec0 1) = in2 m c := arg2_1 m ρ c
  rw [e0, e1]
  exact (Cert.ReferenceIdeal.Stages.message1 (in0 m c) (in1 m c) (in2 m c)).symm
theorem src2 : W2 m ρ c (Proc.devRef .tc main_v1) = val_main_v1 (F := Ideal) (in1 m c) :=
  (W2_of_ne m ρ c main_v1 (by decide)).trans (src1 m ρ c)
theorem dst2 : W2 m ρ c (Proc.devRef .tc main_v3) = val_main_v3 (F := Ideal) (in1 m c) :=
  (W2_of_ne m ρ c main_v3 (by decide)).trans (dst1 m ρ c)
theorem cnt2 : W2 m ρ c (Proc.devRef .tc main_v9) = val_main_v21 (F := Ideal) (in1 m c) :=
  (W2_of_ne m ρ c main_v9 (by decide)).trans (cnt1 m ρ c)
theorem arg0_2 : W2 m ρ c (Proc.devRef .tc main_arg0) = in0 m c :=
  (W2_of_ne m ρ c main_arg0 (by decide)).trans (arg0_1 m ρ c)
theorem arg3_2 : W2 m ρ c (Proc.devRef .tc main_arg3) = in3 m c :=
  (W2_of_ne m ρ c main_arg3 (by decide)).trans (arg3_1 m ρ c)
theorem arg4_2 : W2 m ρ c (Proc.devRef .tc main_arg4) = in4 m c :=
  (W2_of_ne m ρ c main_arg4 (by decide)).trans (arg4_1 m ρ c)
theorem arg5_2 : W2 m ρ c (Proc.devRef .tc main_arg5) = in5 m c :=
  (W2_of_ne m ρ c main_arg5 (by decide)).trans (arg5_1 m ρ c)
theorem arg6_2 : W2 m ρ c (Proc.devRef .tc main_arg6) = in6 m c :=
  (W2_of_ne m ρ c main_arg6 (by decide)).trans (arg6_1 m ρ c)
theorem arg7_2 : W2 m ρ c (Proc.devRef .tc main_arg7) = in7 m c :=
  (W2_of_ne m ρ c main_arg7 (by decide)).trans (arg7_1 m ρ c)
theorem arg8_2 : W2 m ρ c (Proc.devRef .tc main_arg8) = in8 m c :=
  (W2_of_ne m ρ c main_arg8 (by decide)).trans (arg8_1 m ρ c)
theorem arg2_2 : W2 m ρ c (Proc.devRef .tc main_arg2) = in2 m c :=
  ((W2_arr m ρ c 1).trans (((dat0 (V1 m ρ) c).arrAt_in 1 rfl _).trans (A_eq0 (V1 m ρ) c 1))).trans (arg2_1 m ρ c)

/-! ## Entering the first dense region -/

theorem aggregate3 : W3 m ρ c (Proc.devRef .tc main_v22) = val_main_v23 (F := Ideal) (in0 m c) (in1 m c) (in2 m c) := by
  host_stretch
  rw [messages2 m ρ c, dst2 m ρ c, cnt2 m ρ c]
  rfl
theorem src3 : W3 m ρ c (Proc.devRef .tc main_v1) = val_main_v1 (F := Ideal) (in1 m c) :=
  (show W3 m ρ c (Proc.devRef .tc main_v1) = W2 m ρ c (Proc.devRef .tc main_v1) by host_stretch).trans (src2 m ρ c)
theorem dst3 : W3 m ρ c (Proc.devRef .tc main_v3) = val_main_v3 (F := Ideal) (in1 m c) :=
  (show W3 m ρ c (Proc.devRef .tc main_v3) = W2 m ρ c (Proc.devRef .tc main_v3) by host_stretch).trans (dst2 m ρ c)
theorem cnt3 : W3 m ρ c (Proc.devRef .tc main_v9) = val_main_v21 (F := Ideal) (in1 m c) :=
  (show W3 m ρ c (Proc.devRef .tc main_v9) = W2 m ρ c (Proc.devRef .tc main_v9) by host_stretch).trans (cnt2 m ρ c)
theorem arg0_3 : W3 m ρ c (Proc.devRef .tc main_arg0) = in0 m c :=
  (show W3 m ρ c (Proc.devRef .tc main_arg0) = W2 m ρ c (Proc.devRef .tc main_arg0) by host_stretch).trans (arg0_2 m ρ c)
theorem arg2_3 : W3 m ρ c (Proc.devRef .tc main_arg2) = in2 m c :=
  (show W3 m ρ c (Proc.devRef .tc main_arg2) = W2 m ρ c (Proc.devRef .tc main_arg2) by host_stretch).trans (arg2_2 m ρ c)
theorem arg3_3 : W3 m ρ c (Proc.devRef .tc main_arg3) = in3 m c :=
  (show W3 m ρ c (Proc.devRef .tc main_arg3) = W2 m ρ c (Proc.devRef .tc main_arg3) by host_stretch).trans (arg3_2 m ρ c)
theorem arg4_3 : W3 m ρ c (Proc.devRef .tc main_arg4) = in4 m c :=
  (show W3 m ρ c (Proc.devRef .tc main_arg4) = W2 m ρ c (Proc.devRef .tc main_arg4) by host_stretch).trans (arg4_2 m ρ c)
theorem arg5_3 : W3 m ρ c (Proc.devRef .tc main_arg5) = in5 m c :=
  (show W3 m ρ c (Proc.devRef .tc main_arg5) = W2 m ρ c (Proc.devRef .tc main_arg5) by host_stretch).trans (arg5_2 m ρ c)
theorem arg6_3 : W3 m ρ c (Proc.devRef .tc main_arg6) = in6 m c :=
  (show W3 m ρ c (Proc.devRef .tc main_arg6) = W2 m ρ c (Proc.devRef .tc main_arg6) by host_stretch).trans (arg6_2 m ρ c)
theorem arg7_3 : W3 m ρ c (Proc.devRef .tc main_arg7) = in7 m c :=
  (show W3 m ρ c (Proc.devRef .tc main_arg7) = W2 m ρ c (Proc.devRef .tc main_arg7) by host_stretch).trans (arg7_2 m ρ c)
theorem arg8_3 : W3 m ρ c (Proc.devRef .tc main_arg8) = in8 m c :=
  (show W3 m ρ c (Proc.devRef .tc main_arg8) = W2 m ρ c (Proc.devRef .tc main_arg8) by host_stretch).trans (arg8_2 m ρ c)

/-! ## Leaving it -/

theorem hidden4 : W4 m ρ c (Proc.devRef .tc main_v23) = val_main_v30 (F := Ideal) (in0 m c) (in1 m c) (in2 m c) (in3 m c) (in4 m c) (in5 m c) := by
  refine (W4_arr m ρ c 5).trans ((Lin1.final (V3 m ρ) c).trans ?_)
  have e0 : V3 m ρ c (Pipeline.arrRef spec1 0) = val_main_v23 (F := Ideal) (in0 m c) (in1 m c) (in2 m c) := aggregate3 m ρ c
  have e1 : V3 m ρ c (Pipeline.arrRef spec1 1) = in0 m c := arg0_3 m ρ c
  have e2 : V3 m ρ c (Pipeline.arrRef spec1 2) = in3 m c := arg3_3 m ρ c
  have e3 : V3 m ρ c (Pipeline.arrRef spec1 3) = in4 m c := arg4_3 m ρ c
  have e4 : V3 m ρ c (Pipeline.arrRef spec1 4) = in5 m c := arg5_3 m ρ c
  rw [e0, e1, e2, e3, e4]
  exact (Cert.ReferenceIdeal.Stages.hidden (in0 m c) (in1 m c) (in2 m c) (in3 m c) (in4 m c) (in5 m c)).symm
theorem src4 : W4 m ρ c (Proc.devRef .tc main_v1) = val_main_v1 (F := Ideal) (in1 m c) :=
  (W4_of_ne m ρ c main_v1 (by decide)).trans (src3 m ρ c)
theorem dst4 : W4 m ρ c (Proc.devRef .tc main_v3) = val_main_v3 (F := Ideal) (in1 m c) :=
  (W4_of_ne m ρ c main_v3 (by decide)).trans (dst3 m ρ c)
theorem cnt4 : W4 m ρ c (Proc.devRef .tc main_v9) = val_main_v21 (F := Ideal) (in1 m c) :=
  (W4_of_ne m ρ c main_v9 (by decide)).trans (cnt3 m ρ c)
theorem arg2_4 : W4 m ρ c (Proc.devRef .tc main_arg2) = in2 m c :=
  (W4_of_ne m ρ c main_arg2 (by decide)).trans (arg2_3 m ρ c)
theorem arg6_4 : W4 m ρ c (Proc.devRef .tc main_arg6) = in6 m c :=
  (W4_of_ne m ρ c main_arg6 (by decide)).trans (arg6_3 m ρ c)
theorem arg7_4 : W4 m ρ c (Proc.devRef .tc main_arg7) = in7 m c :=
  (W4_of_ne m ρ c main_arg7 (by decide)).trans (arg7_3 m ρ c)
theorem arg8_4 : W4 m ρ c (Proc.devRef .tc main_arg8) = in8 m c :=
  (W4_of_ne m ρ c main_arg8 (by decide)).trans (arg8_3 m ρ c)

/-! ## Entering the second message region -/

theorem gathered5 : W5 m ρ c (Proc.devRef .tc main_v30) = val_main_v37 (F := Ideal) (in0 m c) (in1 m c) (in2 m c) (in3 m c) (in4 m c) (in5 m c) := by
  host_stretch
  rw [hidden4 m ρ c, src4 m ρ c]
  rfl
theorem hidden5 : W5 m ρ c (Proc.devRef .tc main_v23) = val_main_v30 (F := Ideal) (in0 m c) (in1 m c) (in2 m c) (in3 m c) (in4 m c) (in5 m c) :=
  (show W5 m ρ c (Proc.devRef .tc main_v23) = W4 m ρ c (Proc.devRef .tc main_v23) by host_stretch).trans (hidden4 m ρ c)
theorem dst5 : W5 m ρ c (Proc.devRef .tc main_v3) = val_main_v3 (F := Ideal) (in1 m c) :=
  (show W5 m ρ c (Proc.devRef .tc main_v3) = W4 m ρ c (Proc.devRef .tc main_v3) by host_stretch).trans (dst4 m ρ c)
theorem cnt5 : W5 m ρ c (Proc.devRef .tc main_v9) = val_main_v21 (F := Ideal) (in1 m c) :=
  (show W5 m ρ c (Proc.devRef .tc main_v9) = W4 m ρ c (Proc.devRef .tc main_v9) by host_stretch).trans (cnt4 m ρ c)
theorem arg2_5 : W5 m ρ c (Proc.devRef .tc main_arg2) = in2 m c :=
  (show W5 m ρ c (Proc.devRef .tc main_arg2) = W4 m ρ c (Proc.devRef .tc main_arg2) by host_stretch).trans (arg2_4 m ρ c)
theorem arg6_5 : W5 m ρ c (Proc.devRef .tc main_arg6) = in6 m c :=
  (show W5 m ρ c (Proc.devRef .tc main_arg6) = W4 m ρ c (Proc.devRef .tc main_arg6) by host_stretch).trans (arg6_4 m ρ c)
theorem arg7_5 : W5 m ρ c (Proc.devRef .tc main_arg7) = in7 m c :=
  (show W5 m ρ c (Proc.devRef .tc main_arg7) = W4 m ρ c (Proc.devRef .tc main_arg7) by host_stretch).trans (arg7_4 m ρ c)
theorem arg8_5 : W5 m ρ c (Proc.devRef .tc main_arg8) = in8 m c :=
  (show W5 m ρ c (Proc.devRef .tc main_arg8) = W4 m ρ c (Proc.devRef .tc main_arg8) by host_stretch).trans (arg8_4 m ρ c)

/-! ## Leaving it -/

theorem messages6 : W6 m ρ c (Proc.devRef .tc main_v31) = val_main_v39 (F := Ideal) (in0 m c) (in1 m c) (in2 m c) (in3 m c) (in4 m c) (in5 m c) := by
  refine (W6_arr m ρ c 2).trans ((Msg2.final (V5 m ρ) c).trans ?_)
  have e0 : V5 m ρ c (Pipeline.arrRef spec2 0) = val_main_v37 (F := Ideal) (in0 m c) (in1 m c) (in2 m c) (in3 m c) (in4 m c) (in5 m c) := gathered5 m ρ c
  have e1 : V5 m ρ c (Pipeline.arrRef spec2 1) = in2 m c := arg2_5 m ρ c
  rw [e0, e1]
  exact (Cert.ReferenceIdeal.Stages.message2 (in0 m c) (in1 m c) (in2 m c) (in3 m c) (in4 m c) (in5 m c)).symm
theorem hidden6 : W6 m ρ c (Proc.devRef .tc main_v23) = val_main_v30 (F := Ideal) (in0 m c) (in1 m c) (in2 m c) (in3 m c) (in4 m c) (in5 m c) :=
  (W6_of_ne m ρ c main_v23 (by decide)).trans (hidden5 m ρ c)
theorem dst6 : W6 m ρ c (Proc.devRef .tc main_v3) = val_main_v3 (F := Ideal) (in1 m c) :=
  (W6_of_ne m ρ c main_v3 (by decide)).trans (dst5 m ρ c)
theorem cnt6 : W6 m ρ c (Proc.devRef .tc main_v9) = val_main_v21 (F := Ideal) (in1 m c) :=
  (W6_of_ne m ρ c main_v9 (by decide)).trans (cnt5 m ρ c)
theorem arg6_6 : W6 m ρ c (Proc.devRef .tc main_arg6) = in6 m c :=
  (W6_of_ne m ρ c main_arg6 (by decide)).trans (arg6_5 m ρ c)
theorem arg7_6 : W6 m ρ c (Proc.devRef .tc main_arg7) = in7 m c :=
  (W6_of_ne m ρ c main_arg7 (by decide)).trans (arg7_5 m ρ c)
theorem arg8_6 : W6 m ρ c (Proc.devRef .tc main_arg8) = in8 m c :=
  (W6_of_ne m ρ c main_arg8 (by decide)).trans (arg8_5 m ρ c)

/-! ## Entering the second dense region -/

theorem aggregate7 : W7 m ρ c (Proc.devRef .tc main_v36) = val_main_v50 (F := Ideal) (in0 m c) (in1 m c) (in2 m c) (in3 m c) (in4 m c) (in5 m c) := by
  host_stretch
  rw [messages6 m ρ c, dst6 m ρ c, cnt6 m ρ c]
  rfl
theorem hidden7 : W7 m ρ c (Proc.devRef .tc main_v23) = val_main_v30 (F := Ideal) (in0 m c) (in1 m c) (in2 m c) (in3 m c) (in4 m c) (in5 m c) :=
  (show W7 m ρ c (Proc.devRef .tc main_v23) = W6 m ρ c (Proc.devRef .tc main_v23) by host_stretch).trans (hidden6 m ρ c)
theorem arg6_7 : W7 m ρ c (Proc.devRef .tc main_arg6) = in6 m c :=
  (show W7 m ρ c (Proc.devRef .tc main_arg6) = W6 m ρ c (Proc.devRef .tc main_arg6) by host_stretch).trans (arg6_6 m ρ c)
theorem arg7_7 : W7 m ρ c (Proc.devRef .tc main_arg7) = in7 m c :=
  (show W7 m ρ c (Proc.devRef .tc main_arg7) = W6 m ρ c (Proc.devRef .tc main_arg7) by host_stretch).trans (arg7_6 m ρ c)
theorem arg8_7 : W7 m ρ c (Proc.devRef .tc main_arg8) = in8 m c :=
  (show W7 m ρ c (Proc.devRef .tc main_arg8) = W6 m ρ c (Proc.devRef .tc main_arg8) by host_stretch).trans (arg8_6 m ρ c)

/-! ## The result -/

theorem result8 : W8 m ρ c (Proc.devRef .tc main_v37) = val_main_v56 (F := Ideal) (in0 m c) (in1 m c) (in2 m c) (in3 m c) (in4 m c) (in5 m c) (in6 m c) (in7 m c) (in8 m c) := by
  refine (W8_arr m ρ c 5).trans ((Lin3.final (V7 m ρ) c).trans ?_)
  have e0 : V7 m ρ c (Pipeline.arrRef spec3 0) = val_main_v50 (F := Ideal) (in0 m c) (in1 m c) (in2 m c) (in3 m c) (in4 m c) (in5 m c) := aggregate7 m ρ c
  have e1 : V7 m ρ c (Pipeline.arrRef spec3 1) = val_main_v30 (F := Ideal) (in0 m c) (in1 m c) (in2 m c) (in3 m c) (in4 m c) (in5 m c) := hidden7 m ρ c
  have e2 : V7 m ρ c (Pipeline.arrRef spec3 2) = in6 m c := arg6_7 m ρ c
  have e3 : V7 m ρ c (Pipeline.arrRef spec3 3) = in7 m c := arg7_7 m ρ c
  have e4 : V7 m ρ c (Pipeline.arrRef spec3 4) = in8 m c := arg8_7 m ρ c
  rw [e0, e1, e2, e3, e4]
  exact (Cert.ReferenceIdeal.Stages.output (in0 m c) (in1 m c) (in2 m c) (in3 m c) (in4 m c) (in5 m c) (in6 m c) (in7 m c) (in8 m c)).symm

end Cert.KernelIdeal.Chain

end
-- ==== Proof.lean ====
/-
  A two-layer mean-aggregation graph network over 50,000 nodes and 1,600,000 edges with 128 features: per layer, gather
  the source node's features along every edge, add the edge's features and clamp at zero (the messages), sum the
  messages into their destination nodes and divide by the clamped in-degree (the mean aggregate), then the dense step
  (aggregate · Wl + b) + features · Wr, clamped at zero after the first layer only.

  The kernel's program runs the message step and the dense step as four kernel regions (200 row blocks of 8000 edges,
  10 row blocks of 5000 nodes) and leaves the gathers, the scatter-sums, the counts and the quotients to the host; the
  reference runs everything on the host. At the ideal values (floats are extended reals, a change of float format is
  the identity, a matrix product is the plain sum over the contracted index) each region's output array is one
  function of its input arrays, entry by entry, and that function is the reference's own stage: the two programs
  apply the same operations in the same grouping, so the results agree with no appeal to finiteness.

  The three frames are the generated ones (the reference's is its generated run with the result dropped); the ideal pass
  rewrote nothing, so the preservation claim is trivial.
-/
import proofs.«158454_j59279138619817_1_alg».proof.Defs
import proofs.«158454_j59279138619817_1_alg».proof.Proof.Gen.Kernel
import proofs.«158454_j59279138619817_1_alg».proof.Proof.Gen.Kernel.Skeleton
import proofs.«158454_j59279138619817_1_alg».proof.Proof.Gen.Kernel.Launch
import proofs.«158454_j59279138619817_1_alg».proof.Proof.Gen.Kernel.Points
import proofs.«158454_j59279138619817_1_alg».proof.Proof.Gen.Kernel.Frame
import proofs.«158454_j59279138619817_1_alg».proof.Proof.Gen.KernelIdeal
import proofs.«158454_j59279138619817_1_alg».proof.Proof.Gen.KernelIdeal.Skeleton
import proofs.«158454_j59279138619817_1_alg».proof.Proof.Gen.KernelIdeal.Launch
import proofs.«158454_j59279138619817_1_alg».proof.Proof.Gen.KernelIdeal.Points
import proofs.«158454_j59279138619817_1_alg».proof.Proof.Gen.KernelIdeal.Frame
import proofs.«158454_j59279138619817_1_alg».proof.Proof.Gen.ReferenceIdeal
import proofs.«158454_j59279138619817_1_alg».proof.Proof.Gen.ReferenceIdeal.Run
import proofs.«158454_j59279138619817_1_alg».proof.Proof.Gen.ReferenceIdeal.Read
import proofs.«158454_j59279138619817_1_alg».proof.Proof.Gen.Pre_finite_inputs
import proofs.«158454_j59279138619817_1_alg».proof.Proof.KRun
import proofs.«158454_j59279138619817_1_alg».proof.Proof.KChain
import Idealize.ShloMosaic.Adequacy
import Idealize.ShloMosaic.Init

noncomputable section

namespace Cert.Proof

open Idealize.ShloMosaic Idealize.SL.Sem

/-- Both idealized programs end with the same result: the reference's last stage of the nine argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => Cert.ReferenceIdeal.Read.val_main_v56 (F := Ideal) (Cert.KernelIdeal.Chain.in0 m c) (Cert.KernelIdeal.Chain.in1 m c) (Cert.KernelIdeal.Chain.in2 m c) (Cert.KernelIdeal.Chain.in3 m c) (Cert.KernelIdeal.Chain.in4 m c) (Cert.KernelIdeal.Chain.in5 m c) (Cert.KernelIdeal.Chain.in6 m c) (Cert.KernelIdeal.Chain.in7 m c) (Cert.KernelIdeal.Chain.in8 m c),
      (θ_run Cert.KernelIdeal.defs _ _).mono
        (fun r h c => ⟨(h c).1.trans (Cert.KernelIdeal.Chain.result8 m ρ c), (h c).2⟩)
        (Cert.KernelIdeal.Named.run (F := Ideal) m ρ),
      (θ_run Cert.ReferenceIdeal.defs _ _).mono
        (fun r h c => ⟨by
          obtain ⟨e0, e1, e2, e3, e4, e5, e6, e7, e8⟩ := hagree c
          rw [(h c).1, Cert.ReferenceIdeal.Read.val_main_v56_eq, e0, e1, e2, e3, e4, e5, e6, e7, e8], (h c).2⟩)
        (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
